-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1 : Shape := ⟨2, ![100000, 1]⟩
abbrev S1600000 : Shape := ⟨1, ![1600000]⟩
abbrev S1x32 : Shape := ⟨2, ![1, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S100000x1 : S_.BroadcastsInDim S100000x1 (![] : Fin 0 → Fin S100000x1.rank)
  reducesTo_S100000x1_S_d0_1 : S100000x1.ReducesTo [0, 1] S_
  h_S_ : 0 < S_.numel
  bcast_S_S1x32 : S_.BroadcastsInDim S1x32 (![] : Fin 0 → Fin S1x32.rank)
  reducesTo_S1x32_S_d0_1 : S1x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S1 .f32) (main_v13 : IVec S_ 1) (main_v16 : IVec S32x1 1) : IVec S_ 1 :=
  let main_c_5 : IVec S_ 1 := constantI S_ 1 1#1
  let main_v17 : IVec S_ 1 := (fun x v => Host.reduce IntOp.andi x v reducesTo_S32x1_S_d0_1 h_S_) main_v16 main_c_5
  let main_v18 : IVec S_ 1 := andi main_v13 main_v17
  let main_v19 : FVec F S1 .f32 := Host.absf main_arg6
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S100000x1 .f32) (main_arg1 : IVec S1600000 32) (main_arg2 : IVec S1600000 32) (main_arg3 : FVec F S1x32 .f32) (main_arg4 : FVec F S32 .f32) (main_arg5 : FVec F S32x1 .f32) (main_arg6 : FVec F S1 .f32) : IVec S_ 1 :=
  let main_v0 : FVec F S100000x1 .f32 := Host.absf main_arg0
  let main_cst : FVec F S_ .f32 := constant S_ .f32 0x7F800000#32
  let main_v1 : FVec F S100000x1 .f32 := broadcastInDim S100000x1 ![] bcast_S_S100000x1 main_cst
  let main_v2 : IVec S100000x1 1 := cmpf .olt main_v0 main_v1
  let main_c : IVec S_ 1 := constantI S_ 1 1#1
  let main_v3 : IVec S_ 1 := (fun x v => Host.reduce IntOp.andi x v reducesTo_S100000x1_S_d0_1 h_S_) main_v2 main_c
  let main_v4 : FVec F S1x32 .f32 := Host.absf main_arg3
  let main_cst_0 : FVec F S_ .f32 := constant S_ .f32 0x7F800000#32
  let main_v5 : FVec F S1x32 .f32 := broadcastInDim S1x32 ![] bcast_S_S1x32 main_cst_0
  let main_v6 : IVec S1x32 1 := cmpf .olt main_v4 main_v5
  let main_c_1 : IVec S_ 1 := constantI S_ 1 1#1
  let main_v7 : IVec S_ 1 := (fun x v => Host.reduce IntOp.andi x v reducesTo_S1x32_S_d0_1 h_S_) main_v6 main_c_1
  let main_v8 : IVec S_ 1 := andi main_v3 main_v7
  let main_v9 : FVec F S32 .f32 := Host.absf main_arg4
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x1 .f32 := Host.absf main_arg5
  let main_cst_4 : FVec F S_ .f32 := constant S_ .f32 0x7F800000#32
  let main_v15 : FVec F S32x1 .f32 := broadcastInDim S32x1 ![] bcast_S_S32x1 main_cst_4
  let main_v16 : IVec S32x1 1 := cmpf .olt main_v14 main_v15
  fn_part1 (F := F) main_arg6 main_v13 main_v16
-- ==== Kernel.lean ====
abbrev S100000x1 : Shape := ⟨2, ![100000, 1]⟩
abbrev S1600000 : Shape := ⟨1, ![1600000]⟩
abbrev S1x32 : Shape := ⟨2, ![1, 32]⟩
abbrev S32 : Shape := ⟨1, ![32]⟩
abbrev S32x1 : Shape := ⟨2, ![32, 1]⟩
abbrev S1 : Shape := ⟨1, ![1]⟩
abbrev S_ : Shape := ⟨0, ![]⟩
abbrev S100000 : Shape := ⟨1, ![100000]⟩
abbrev S1600000x1 : Shape := ⟨2, ![1600000, 1]⟩
abbrev S10000x1 : Shape := ⟨2, ![10000, 1]⟩
abbrev S10000x32 : Shape := ⟨2, ![10000, 32]⟩
abbrev S1x1 : Shape := ⟨2, ![1, 1]⟩

abbrev nBuf : Space → Nat
  | .hbm => 50
  | .vmem => 24
  | .smem => 0
  | _ => 0

abbrev bufTy : (tb : Table) → Fin (tcTables nBuf tb) → BufTy
  | .hbm, ⟨0, _⟩ => ⟨S100000x1, .f32⟩
  | .hbm, ⟨1, _⟩ => ⟨S1600000, .i32⟩
  | .hbm, ⟨2, _⟩ => ⟨S1600000, .i32⟩
  | .hbm, ⟨3, _⟩ => ⟨S1x32, .f32⟩
  | .hbm, ⟨4, _⟩ => ⟨S32, .f32⟩
  | .hbm, ⟨5, _⟩ => ⟨S32x1, .f32⟩
  | .hbm, ⟨6, _⟩ => ⟨S1, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S100000x1, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S100000x1, .f32⟩
  | .hbm, ⟨19, _⟩ => ⟨S100000x1, .f32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000x1, .f32⟩
  | .hbm, ⟨29, _⟩ => ⟨S_, .f32⟩
  | .hbm, ⟨30, _⟩ => ⟨S100000x1, .f32⟩
  | .hbm, ⟨31, _⟩ => ⟨S1600000x1, .i32⟩
  | .hbm, ⟨32, _⟩ => ⟨S100000x1, .f32⟩
  | .hbm, ⟨33, _⟩ => ⟨S1x32, .f32⟩
  | .hbm, ⟨34, _⟩ => ⟨S100000x1, .f32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000x1, .f32⟩
  | .hbm, ⟨44, _⟩ => ⟨S_, .f32⟩
  | .hbm, ⟨45, _⟩ => ⟨S100000x1, .f32⟩
  | .hbm, ⟨46, _⟩ => ⟨S1600000x1, .i32⟩
  | .hbm, ⟨47, _⟩ => ⟨S100000x1, .f32⟩
  | .hbm, ⟨48, _⟩ => ⟨S1x1, .f32⟩
  | .hbm, ⟨49, _⟩ => ⟨S100000x1, .f32⟩
  | .local _ .vmem, ⟨0, _⟩ => ⟨S10000x1, .f32⟩
  | .local _ .vmem, ⟨1, _⟩ => ⟨S10000x1, .f32⟩
  | .local _ .vmem, ⟨2, _⟩ => ⟨S10000x1, .f32⟩
  | .local _ .vmem, ⟨3, _⟩ => ⟨S10000x1, .f32⟩
  | .local _ .vmem, ⟨4, _⟩ => ⟨S10000x1, .f32⟩
  | .local _ .vmem, ⟨5, _⟩ => ⟨S10000x1, .f32⟩
  | .local _ .vmem, ⟨6, _⟩ => ⟨S10000x1, .f32⟩
  | .local _ .vmem, ⟨7, _⟩ => ⟨S10000x1, .f32⟩
  | .local _ .vmem, ⟨8, _⟩ => ⟨S10000x1, .f32⟩
  | .local _ .vmem, ⟨9, _⟩ => ⟨S10000x1, .f32⟩
  | .local _ .vmem, ⟨10, _⟩ => ⟨S10000x1, .f32⟩
  | .local _ .vmem, ⟨11, _⟩ => ⟨S10000x1, .f32⟩
  | .local _ .vmem, ⟨12, _⟩ => ⟨S1x32, .f32⟩
  | .local _ .vmem, ⟨13, _⟩ => ⟨S1x32, .f32⟩
  | .local _ .vmem, ⟨14, _⟩ => ⟨S32x1, .f32⟩
  | .local _ .vmem, ⟨15, _⟩ => ⟨S10000x1, .f32⟩
  | .local _ .vmem, ⟨16, _⟩ => ⟨S10000x1, .f32⟩
  | .local _ .vmem, ⟨17, _⟩ => ⟨S10000x1, .f32⟩
  | .local _ .vmem, ⟨18, _⟩ => ⟨S10000x1, .f32⟩
  | .local _ .vmem, ⟨19, _⟩ => ⟨S10000x1, .f32⟩
  | .local _ .vmem, ⟨20, _⟩ => ⟨S10000x1, .f32⟩
  | .local _ .vmem, ⟨21, _⟩ => ⟨S1x1, .f32⟩
  | .local _ .vmem, ⟨22, _⟩ => ⟨S10000x1, .f32⟩
  | .local _ .vmem, ⟨23, _⟩ => ⟨S10000x1, .f32⟩
  | _, _ => ⟨S100000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c : Ref sig .tc := ⟨.hbm, 20, rfl⟩
abbrev main_v10 : Ref sig .tc := ⟨.hbm, 21, rfl⟩
abbrev main_v11 : Ref sig .tc := ⟨.hbm, 22, rfl⟩
abbrev main_c_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_4 : Ref sig .tc := ⟨.hbm, 35, rfl⟩
abbrev main_v22 : Ref sig .tc := ⟨.hbm, 36, rfl⟩
abbrev main_v23 : Ref sig .tc := ⟨.hbm, 37, rfl⟩
abbrev main_c_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_6 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg6_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem6_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S32x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S10000x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x1 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  bcast_S_S100000x1 : S_.BroadcastsInDim S100000x1 (![] : Fin 0 → Fin S100000x1.rank)
  shapeCasts_S32_S1x32 : S32.ShapeCasts S1x32
  inb_S1x32_S1x32_0_0 : ∀ a, (![0, 0] : Fin 2 → Nat) a + S1x32.size a ≤ S1x32.size a
  h_S1x32 : 0 < S1x32.numel
  bitsLt_bf16_f32 : FTy.bits .bf16 < FTy.bits .f32
  shapeCasts_S1x32_S1x32 : S1x32.ShapeCasts S1x32
  broadcasts_S1x32_S10000x32 : S1x32.Broadcasts S10000x32
  broadcasts_S10000x1_S10000x32 : S10000x1.Broadcasts S10000x32
  inb_S32x1_S32x1_0_0 : ∀ a, (![0, 0] : Fin 2 → Nat) a + S32x1.size a ≤ S32x1.size a
  h_S32x1 : 0 < S32x1.numel
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  scatter_S100000_S1600000x1_S1600000_n_0_0_1_wf : ScatterDims.WF S100000 S1600000x1 S1600000 [] [0] [0] 1
  gather_S100000x1_S1600000x1_S1600000x1_1_0_n_n_0_1_11_wf : GatherDims.WF S100000x1 S1600000x1 S1600000x1 [1] [0] [] [0] [] 1 ![1, 1]
  scatter_S100000x1_S1600000x1_S1600000x1_1_0_0_1_wf : ScatterDims.WF S100000x1 S1600000x1 S1600000x1 [1] [0] [0] 1
  dot_S10000x1_S1x32_S10000x32_1_0_0_1_n_n_wf : DotDims.WF S10000x1 S1x32 S10000x32 [1] [0] [0] [1] [] []
  dot_S10000x32_S32x1_S10000x1_1_0_0_1_n_n_wf : DotDims.WF S10000x32 S32x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x1.size a ≤ S100000x1.size a
  hwx0_0 : ∀ i : grid0.Coords, EltTy.bits .f32 = 32 ∨ (Rect.block (s := S100000x1) S10000x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S100000x1.size a
  hwx0_1 : ∀ i : grid0.Coords, EltTy.bits .f32 = 32 ∨ (Rect.block (s := S100000x1) S10000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x1.size a ≤ S100000x1.size a
  hwx0_2 : ∀ i : grid0.Coords, EltTy.bits .f32 = 32 ∨ (Rect.block (s := S100000x1) S10000x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x1.size a ≤ S100000x1.size a
  hwx1_0 : ∀ i : grid1.Coords, EltTy.bits .f32 = 32 ∨ (Rect.block (s := S100000x1) S10000x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S100000x1.size a
  hwx1_1 : ∀ i : grid1.Coords, EltTy.bits .f32 = 32 ∨ (Rect.block (s := S100000x1) S10000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x1.size a ≤ S100000x1.size a
  hwx1_2 : ∀ i : grid1.Coords, EltTy.bits .f32 = 32 ∨ (Rect.block (s := S100000x1) S10000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x32.size a ≤ S1x32.size a
  hwx1_4 : ∀ i : grid1.Coords, EltTy.bits .f32 = 32 ∨ (Rect.block (s := S1x32) S1x32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S32x1.size a ≤ S32x1.size a
  hwx1_5 : ∀ i : grid1.Coords, EltTy.bits .f32 = 32 ∨ (Rect.block (s := S32x1) S32x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S10000x1.size a ≤ S100000x1.size a
  hwx1_6 : ∀ i : grid1.Coords, EltTy.bits .f32 = 32 ∨ (Rect.block (s := S100000x1) S10000x1.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x1.size a ≤ S100000x1.size a
  hwx2_0 : ∀ i : grid2.Coords, EltTy.bits .f32 = 32 ∨ (Rect.block (s := S100000x1) S10000x1.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x1.size a ≤ S100000x1.size a
  hwx2_1 : ∀ i : grid2.Coords, EltTy.bits .f32 = 32 ∨ (Rect.block (s := S100000x1) S10000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1.size a ≤ S1x1.size a
  hwx2_2 : ∀ i : grid2.Coords, EltTy.bits .f32 = 32 ∨ (Rect.block (s := S1x1) S1x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x1.size a ≤ S100000x1.size a
  hwx2_3 : ∀ i : grid2.Coords, EltTy.bits .f32 = 32 ∨ (Rect.block (s := S100000x1) S10000x1.size (cc2_transform_3 i) (hinb2_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x1_S1600000x1_S1600000x1_1_0_n_n_0_1_11 : GatherDims S100000x1 S1600000x1 S1600000x1 where
  offsetDims := [1]
  collapsedSliceDims := [0]
  operandBatchingDims := []
  startIndicesBatchingDims := []
  startIndexMap := [0]
  indexVectorDim := 1
  sliceSizes := ![1, 1]
  wf := gather_S100000x1_S1600000x1_S1600000x1_1_0_n_n_0_1_11_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S10000x1_S1x32_S10000x32_1_0_0_1_n_n : DotDims S10000x1 S1x32 S10000x32 where
  lhsContracting := [1]
  rhsContracting := [0]
  lhsNonContracting := [0]
  rhsNonContracting := [1]
  lhsBatch := []
  rhsBatch := []
  wf := dot_S10000x1_S1x32_S10000x32_1_0_0_1_n_n_wf
def dot_S10000x32_S32x1_S10000x1_1_0_0_1_n_n : DotDims S10000x32 S32x1 S10000x1 where
  lhsContracting := [1]
  rhsContracting := [0]
  lhsNonContracting := [0]
  rhsNonContracting := [1]
  lhsBatch := []
  rhsBatch := []
  wf := dot_S10000x32_S32x1_S10000x1_1_0_0_1_n_n_wf

abbrev win0_0 : Pipeline.Window sig grid0 :=
  Pipeline.Window.ofSpec (Memref.whole main_arg0) S10000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S10000x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v19) S10000x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S10000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v20) S1x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg5) S32x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v21) S10000x1.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v31) S10000x1.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8) S10000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v32) S1x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v33) S10000x1.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x1 : Shape := ⟨2, ![100000, 1]⟩
abbrev S1600000 : Shape := ⟨1, ![1600000]⟩
abbrev S1x32 : Shape := ⟨2, ![1, 32]⟩
abbrev S32 : Shape := ⟨1, ![32]⟩
abbrev S32x1 : Shape := ⟨2, ![32, 1]⟩
abbrev S1 : Shape := ⟨1, ![1]⟩
abbrev S_ : Shape := ⟨0, ![]⟩
abbrev S100000 : Shape := ⟨1, ![100000]⟩
abbrev S1600000x1 : Shape := ⟨2, ![1600000, 1]⟩
abbrev S100000x32 : Shape := ⟨2, ![100000, 32]⟩
abbrev S1x1 : Shape := ⟨2, ![1, 1]⟩

abbrev nBuf : Space → Nat
  | .hbm => 90
  | .vmem => 0
  | .smem => 0
  | _ => 0

abbrev bufTy : (tb : Table) → Fin (tcTables nBuf tb) → BufTy
  | .hbm, ⟨0, _⟩ => ⟨S100000x1, .f32⟩
  | .hbm, ⟨1, _⟩ => ⟨S1600000, .i32⟩
  | .hbm, ⟨2, _⟩ => ⟨S1600000, .i32⟩
  | .hbm, ⟨3, _⟩ => ⟨S1x32, .f32⟩
  | .hbm, ⟨4, _⟩ => ⟨S32, .f32⟩
  | .hbm, ⟨5, _⟩ => ⟨S32x1, .f32⟩
  | .hbm, ⟨6, _⟩ => ⟨S1, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S100000x1, .f32⟩
  | .hbm, ⟨26, _⟩ => ⟨S100000x1, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x1, .f32⟩
  | .hbm, ⟨36, _⟩ => ⟨S_, .f32⟩
  | .hbm, ⟨37, _⟩ => ⟨S100000x1, .f32⟩
  | .hbm, ⟨38, _⟩ => ⟨S1600000x1, .i32⟩
  | .hbm, ⟨39, _⟩ => ⟨S100000x1, .f32⟩
  | .hbm, ⟨40, _⟩ => ⟨S100000x32, .f32⟩
  | .hbm, ⟨41, _⟩ => ⟨S100000x1, .f32⟩
  | .hbm, ⟨42, _⟩ => ⟨S100000x32, .f32⟩
  | .hbm, ⟨43, _⟩ => ⟨S100000x32, .f32⟩
  | .hbm, ⟨44, _⟩ => ⟨S1x32, .f32⟩
  | .hbm, ⟨45, _⟩ => ⟨S100000x32, .f32⟩
  | .hbm, ⟨46, _⟩ => ⟨S100000x32, .f32⟩
  | .hbm, ⟨47, _⟩ => ⟨S_, .f32⟩
  | .hbm, ⟨48, _⟩ => ⟨S100000x32, .f32⟩
  | .hbm, ⟨49, _⟩ => ⟨S100000x32, .f32⟩
  | .hbm, ⟨50, _⟩ => ⟨S_, .f32⟩
  | .hbm, ⟨51, _⟩ => ⟨S1600000, .f32⟩
  | .hbm, ⟨52, _⟩ => ⟨S_, .f32⟩
  | .hbm, ⟨53, _⟩ => ⟨S100000, .f32⟩
  | .hbm, ⟨54, _⟩ => ⟨S1600000x1, .i32⟩
  | .hbm, ⟨55, _⟩ => ⟨S100000, .f32⟩
  | .hbm, ⟨56, _⟩ => ⟨S_, .f32⟩
  | .hbm, ⟨57, _⟩ => ⟨S100000, .f32⟩
  | .hbm, ⟨58, _⟩ => ⟨S1600000x1, .i32⟩
  | .hbm, ⟨59, _⟩ => ⟨S100000, .f32⟩
  | .hbm, ⟨60, _⟩ => ⟨S_, .f32⟩
  | .hbm, ⟨61, _⟩ => ⟨S100000, .f32⟩
  | .hbm, ⟨62, _⟩ => ⟨S100000, .f32⟩
  | .hbm, ⟨63, _⟩ => ⟨S100000, .f32⟩
  | .hbm, ⟨64, _⟩ => ⟨S_, .f32⟩
  | .hbm, ⟨65, _⟩ => ⟨S100000, .f32⟩
  | .hbm, ⟨66, _⟩ => ⟨S100000, .f32⟩
  | .hbm, ⟨67, _⟩ => ⟨S100000, .f32⟩
  | .hbm, ⟨68, _⟩ => ⟨S100000x1, .f32⟩
  | .hbm, ⟨69, _⟩ => ⟨S100000x32, .f32⟩
  | .hbm, ⟨70, _⟩ => ⟨S100000x32, .f32⟩
  | .hbm, ⟨71, _⟩ => ⟨S100000x1, .f32⟩
  | .hbm, ⟨72, _⟩ => ⟨S_, .i32⟩
  | .hbm, ⟨73, _⟩ => ⟨S1600000, .i32⟩
  | .hbm, ⟨74, _⟩ => ⟨S1600000, .i1⟩
  | .hbm, ⟨75, _⟩ => ⟨S_, .i32⟩
  | .hbm, ⟨76, _⟩ => ⟨S1600000, .i32⟩
  | .hbm, ⟨77, _⟩ => ⟨S1600000, .i32⟩
  | .hbm, ⟨78, _⟩ => ⟨S1600000, .i32⟩
  | .hbm, ⟨79, _⟩ => ⟨S1600000x1, .i32⟩
  | .hbm, ⟨80, _⟩ => ⟨S1600000x1, .f32⟩
  | .hbm, ⟨81, _⟩ => ⟨S_, .f32⟩
  | .hbm, ⟨82, _⟩ => ⟨S100000x1, .f32⟩
  | .hbm, ⟨83, _⟩ => ⟨S1600000x1, .i32⟩
  | .hbm, ⟨84, _⟩ => ⟨S100000x1, .f32⟩
  | .hbm, ⟨85, _⟩ => ⟨S100000x1, .f32⟩
  | .hbm, ⟨86, _⟩ => ⟨S100000x1, .f32⟩
  | .hbm, ⟨87, _⟩ => ⟨S1x1, .f32⟩
  | .hbm, ⟨88, _⟩ => ⟨S100000x1, .f32⟩
  | .hbm, ⟨89, _⟩ => ⟨S100000x1, .f32⟩
  | _, _ => ⟨S100000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_call0_cst : Ref sig .tc := ⟨.hbm, 47, rfl⟩
abbrev main_call0_v0 : Ref sig .tc := ⟨.hbm, 48, rfl⟩
abbrev main_v32 : Ref sig .tc := ⟨.hbm, 49, rfl⟩
abbrev main_cst_6 : Ref sig .tc := ⟨.hbm, 50, rfl⟩
abbrev main_v33 : Ref sig .tc := ⟨.hbm, 51, rfl⟩
abbrev main_cst_7 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_8 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_9 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_10 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_c_11 : Ref sig .tc := ⟨.hbm, 72, rfl⟩
abbrev main_v50 : Ref sig .tc := ⟨.hbm, 73, rfl⟩
abbrev main_v51 : Ref sig .tc := ⟨.hbm, 74, rfl⟩
abbrev main_c_12 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_13 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x32_0_1 : S100000x1.BroadcastsInDim S100000x32 (![0, 1] : Fin 2 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S1600000x1_S1600000_n_0_0_1_wf : ScatterDims.WF S100000 S1600000x1 S1600000 [] [0] [0] 1
  gather_S100000x1_S1600000x1_S1600000x1_1_0_n_n_0_1_11_wf : GatherDims.WF S100000x1 S1600000x1 S1600000x1 [1] [0] [] [0] [] 1 ![1, 1]
  scatter_S100000x1_S1600000x1_S1600000x1_1_0_0_1_wf : ScatterDims.WF S100000x1 S1600000x1 S1600000x1 [1] [0] [0] 1
  dot_S100000x1_S1x32_S100000x32_1_0_0_1_n_n_wf : DotDims.WF S100000x1 S1x32 S100000x32 [1] [0] [0] [1] [] []
  dot_S100000x32_S32x1_S100000x1_1_0_0_1_n_n_wf : DotDims.WF S100000x32 S32x1 S100000x1 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x1_S1600000x1_S1600000x1_1_0_n_n_0_1_11 : GatherDims S100000x1 S1600000x1 S1600000x1 where
  offsetDims := [1]
  collapsedSliceDims := [0]
  operandBatchingDims := []
  startIndicesBatchingDims := []
  startIndexMap := [0]
  indexVectorDim := 1
  sliceSizes := ![1, 1]
  wf := gather_S100000x1_S1600000x1_S1600000x1_1_0_n_n_0_1_11_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S100000x1_S1x32_S100000x32_1_0_0_1_n_n : DotDims S100000x1 S1x32 S100000x32 where
  lhsContracting := [1]
  rhsContracting := [0]
  lhsNonContracting := [0]
  rhsNonContracting := [1]
  lhsBatch := []
  rhsBatch := []
  wf := dot_S100000x1_S1x32_S100000x32_1_0_0_1_n_n_wf
def dot_S100000x32_S32x1_S100000x1_1_0_0_1_n_n : DotDims S100000x32 S32x1 S100000x1 where
  lhsContracting := [1]
  rhsContracting := [0]
  lhsNonContracting := [0]
  rhsNonContracting := [1]
  lhsBatch := []
  rhsBatch := []
  wf := dot_S100000x32_S32x1_S100000x1_1_0_0_1_n_n_wf

class Facts : Prop extends Facts₀ where

variable [Facts]
-- ==== Proof.Spec.lean ====
/-
  The arithmetic of one node of the two-layer graph convolution, at the exact reading (floats are extended reals,
  every operation the textbook one).

  With `d_out`, `d_in` the out- and in-degree of a node and `rs d = (max d 1)^(-1/2)` the degree normaliser:

  * before the first aggregation a node's feature `x` becomes `x · rs d_out`                         (`preRow`);
  * between the two aggregations the aggregated scalar `a` becomes
      `∑ₖ max ((a · rs d_in) · W1[0,k] + b1[0,k]) 0 · rs d_out · W2[k,0]`                            (`midRow`):
    the first layer's 1 → 32 product, bias and ReLU, then the second layer's source normaliser and its
    32 → 1 product;
  * after the second aggregation the aggregated scalar `a` becomes `a · rs d_in + b2`                  (`postRow`).

  The float literals 1.0 and 0.0 stay binary words: the same word stands on both sides and is never evaluated.
-/
import Idealize.ShloMosaic.PureOps.Ideal
import Idealize.ShloMosaic.Lib.ValueIdx

noncomputable section

namespace Cert.Spec

open Idealize.ShloMosaic Idealize.ShloMosaic.ValueIdx

/-- The float literal 1.0 (its binary word) at the exact reading. -/
abbrev one : EReal := Ideal.ofBits .f32 0x3F800000#32
/-- The float literal 0.0 (its binary word) at the exact reading. -/
abbrev zero : EReal := Ideal.ofBits .f32 0x00000000#32

/-- The degree normaliser: `d ↦ (max d 1)^(-1/2)`. -/
def rs (d : EReal) : EReal := Ideal.rsqrt (max d one)

/-- A node's feature scaled by its out-degree normaliser. -/
def preRow (x d : EReal) : EReal := x * rs d

/-- An aggregated scalar scaled by the in-degree normaliser, plus the bias. -/
def postRow (a d b : EReal) : EReal := a * rs d + b

/-- The first layer's product (one input feature), bias and ReLU, the second layer's out-degree normaliser and its
    product down to one feature: the sum over the 32 hidden features. -/
def midRow (a din dout : EReal) (w1 b1 : (⟨2, ![1, 32]⟩ : Shape).Idx → EReal) (w2 : (⟨2, ![32, 1]⟩ : Shape).Idx → EReal) : EReal :=
  ∑ k : Fin 32, (max ((a * rs din) * w1 (ix2 0 k) + b1 (ix2 0 k)) zero * rs dout) * w2 (ix2 k 0)

/-- The node (row) of an index of an `[N, 1]` array, as an index of an `[N]` array. -/
abbrev node (i : (⟨2, ![100000, 1]⟩ : Shape).Idx) : (⟨1, ![100000]⟩ : Shape).Idx := ix1 ⟨(i 0).val, idx2_lt0 i⟩
/-- The hidden feature (column) of an index of a `[1, 32]` array, as an index of a `[32]` array. -/
abbrev hid (y : (⟨2, ![1, 32]⟩ : Shape).Idx) : (⟨1, ![32]⟩ : Shape).Idx := ix1 ⟨(y 1).val, idx2_lt1 y⟩
/-- The one index of a `[1]` array. -/
abbrev only : (⟨1, ![1]⟩ : Shape).Idx := ix1 0

/-- Scaling after the 1 → 32 product is scaling before it: multiplication of extended reals is commutative and
    associative (no distributivity is used, so nothing here needs finiteness). -/
theorem scale_after (a w r : EReal) : (a * w) * r = (a * r) * w := mul_right_comm a w r

end Cert.Spec

end
-- ==== Proof.Payload.lean ====
/-
  The three kernel bodies' stored values read at one index, at the exact reading: each is the node arithmetic of
  `Cert.Spec` applied to the loaded blocks' entries of the same row (and, for the dense layers, to the whole small
  weight and bias blocks).
-/
import proofs.«160025_j60833916780698_1_alg».proof.Proof.Gen.KernelIdeal.Skeleton
import proofs.«160025_j60833916780698_1_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

namespace Cert.KernelValue

open Idealize.ShloMosaic Idealize.ShloMosaic.ValueIdx Cert.KernelIdeal Cert.KernelIdeal.Gen

/-- The first kernel's stored value at row `j`: the feature times its out-degree normaliser. -/
theorem pre_payload (v0 v5 : Vec Ideal S10000x1 .f32) (j : S10000x1.Idx) :
    k0_pay1 (F := Ideal) v0 v5 j = Cert.Spec.preRow (v5 j) (v0 j) := by
  unfold k0_pay1
  simp only [shapeCast_self]
  rfl

/-! ### The first product: a column times a row, contracting the unit axis

  The four coordinate facts: the left operand is read at (row of the result, contracted index), the right operand at
  (contracted index, column of the result). -/

private theorem lhs_d1_0 (i : S10000x32.Idx) (q : dot_S10000x1_S1x32_S10000x32_1_0_0_1_n_n.contr.Idx) :
    (dot_S10000x1_S1x32_S10000x32_1_0_0_1_n_n.lhsIdx i q 0).val = (i 0).val := by
  unfold DotDims.lhsIdx
  rw [dif_neg (show ¬(0 : Fin S10000x1.rank) ∈ dot_S10000x1_S1x32_S10000x32_1_0_0_1_n_n.lhsBatch by decide), dif_pos (show (0 : Fin S10000x1.rank) ∈ dot_S10000x1_S1x32_S10000x32_1_0_0_1_n_n.lhsNonContracting by decide)]
  rfl
private theorem lhs_d1_1 (i : S10000x32.Idx) (q : dot_S10000x1_S1x32_S10000x32_1_0_0_1_n_n.contr.Idx) :
    (dot_S10000x1_S1x32_S10000x32_1_0_0_1_n_n.lhsIdx i q 1).val = (q ⟨0, by decide⟩).val :=
  dot_S10000x1_S1x32_S10000x32_1_0_0_1_n_n.lhsIdx_val_of_single rfl i q
private theorem rhs_d1_0 (i : S10000x32.Idx) (q : dot_S10000x1_S1x32_S10000x32_1_0_0_1_n_n.contr.Idx) :
    (dot_S10000x1_S1x32_S10000x32_1_0_0_1_n_n.rhsIdx i q 0).val = (q ⟨0, by decide⟩).val :=
  dot_S10000x1_S1x32_S10000x32_1_0_0_1_n_n.rhsIdx_val_of_single rfl i q
private theorem rhs_d1_1 (i : S10000x32.Idx) (q : dot_S10000x1_S1x32_S10000x32_1_0_0_1_n_n.contr.Idx) :
    (dot_S10000x1_S1x32_S10000x32_1_0_0_1_n_n.rhsIdx i q 1).val = (i 1).val := by
  unfold DotDims.rhsIdx
  rw [dif_neg (show ¬(1 : Fin S1x32.rank) ∈ dot_S10000x1_S1x32_S10000x32_1_0_0_1_n_n.rhsBatch by decide), dif_pos (show (1 : Fin S1x32.rank) ∈ dot_S10000x1_S1x32_S10000x32_1_0_0_1_n_n.rhsNonContracting by decide)]
  rfl

/-- The first product into a zero accumulator, read at (p, c): the one product of the column's entry of row p and
    the row's entry of column c. -/
private theorem mm1 (A : FVec Ideal S10000x1 .bf16) (B : FVec Ideal S1x32 .bf16) (p : Fin 10000) (c : Fin 32) :
    matmul (F := Ideal) dot_S10000x1_S1x32_S10000x32_1_0_0_1_n_n none A B (constant (F := Ideal) S10000x32 .f32 0x00000000#32) (ix2 p c)
      = A (ix2 p 0) * B (ix2 0 c) := by
  refine (Ideal.matmul_constant_zero_apply dot_S10000x1_S1x32_S10000x32_1_0_0_1_n_n none A B (ix2 p c)).trans ?_
  rw [← Equiv.sum_comp (ValueIdx.contrEquiv1 dot_S10000x1_S1x32_S10000x32_1_0_0_1_n_n 1 rfl rfl).symm]
  refine (Fin.sum_univ_one _).trans ?_
  have hk := ValueIdx.contrEquiv1_symm_val dot_S10000x1_S1x32_S10000x32_1_0_0_1_n_n 1 rfl rfl 0
  have el : dot_S10000x1_S1x32_S10000x32_1_0_0_1_n_n.lhsIdx (ix2 p c) ((ValueIdx.contrEquiv1 dot_S10000x1_S1x32_S10000x32_1_0_0_1_n_n 1 rfl rfl).symm 0) = ix2 p 0 := funext fun a => Fin.ext (by
    match a with
    | ⟨0, _⟩ => exact lhs_d1_0 _ _
    | ⟨1, _⟩ => exact (lhs_d1_1 _ _).trans hk)
  have er : dot_S10000x1_S1x32_S10000x32_1_0_0_1_n_n.rhsIdx (ix2 p c) ((ValueIdx.contrEquiv1 dot_S10000x1_S1x32_S10000x32_1_0_0_1_n_n 1 rfl rfl).symm 0) = ix2 0 c := funext fun a => Fin.ext (by
    match a with
    | ⟨0, _⟩ => exact (rhs_d1_0 _ _).trans hk
    | ⟨1, _⟩ => exact rhs_d1_1 _ _)
  rw [el, er]

/-! ### The second product: rows of 32 hidden features times a column, contracting the 32 features

  The same four coordinate facts for this product. -/

private theorem lhs_d2_0 (i : S10000x1.Idx) (q : dot_S10000x32_S32x1_S10000x1_1_0_0_1_n_n.contr.Idx) :
    (dot_S10000x32_S32x1_S10000x1_1_0_0_1_n_n.lhsIdx i q 0).val = (i 0).val := by
  unfold DotDims.lhsIdx
  rw [dif_neg (show ¬(0 : Fin S10000x32.rank) ∈ dot_S10000x32_S32x1_S10000x1_1_0_0_1_n_n.lhsBatch by decide), dif_pos (show (0 : Fin S10000x32.rank) ∈ dot_S10000x32_S32x1_S10000x1_1_0_0_1_n_n.lhsNonContracting by decide)]
  rfl
private theorem lhs_d2_1 (i : S10000x1.Idx) (q : dot_S10000x32_S32x1_S10000x1_1_0_0_1_n_n.contr.Idx) :
    (dot_S10000x32_S32x1_S10000x1_1_0_0_1_n_n.lhsIdx i q 1).val = (q ⟨0, by decide⟩).val :=
  dot_S10000x32_S32x1_S10000x1_1_0_0_1_n_n.lhsIdx_val_of_single rfl i q
private theorem rhs_d2_0 (i : S10000x1.Idx) (q : dot_S10000x32_S32x1_S10000x1_1_0_0_1_n_n.contr.Idx) :
    (dot_S10000x32_S32x1_S10000x1_1_0_0_1_n_n.rhsIdx i q 0).val = (q ⟨0, by decide⟩).val :=
  dot_S10000x32_S32x1_S10000x1_1_0_0_1_n_n.rhsIdx_val_of_single rfl i q
private theorem rhs_d2_1 (i : S10000x1.Idx) (q : dot_S10000x32_S32x1_S10000x1_1_0_0_1_n_n.contr.Idx) :
    (dot_S10000x32_S32x1_S10000x1_1_0_0_1_n_n.rhsIdx i q 1).val = (i 1).val := by
  unfold DotDims.rhsIdx
  rw [dif_neg (show ¬(1 : Fin S32x1.rank) ∈ dot_S10000x32_S32x1_S10000x1_1_0_0_1_n_n.rhsBatch by decide), dif_pos (show (1 : Fin S32x1.rank) ∈ dot_S10000x32_S32x1_S10000x1_1_0_0_1_n_n.rhsNonContracting by decide)]
  rfl

/-- The second product into a zero accumulator, read at row p: the sum over the 32 hidden features of the row's
    entries times the column's. -/
private theorem mm2 (A : FVec Ideal S10000x32 .bf16) (B : FVec Ideal S32x1 .bf16) (p : Fin 10000) :
    matmul (F := Ideal) dot_S10000x32_S32x1_S10000x1_1_0_0_1_n_n none A B (constant (F := Ideal) S10000x1 .f32 0x00000000#32) (ix2 p 0)
      = ∑ k : Fin 32, A (ix2 p k) * B (ix2 k 0) := by
  refine (Ideal.matmul_constant_zero_apply dot_S10000x32_S32x1_S10000x1_1_0_0_1_n_n none A B (ix2 p 0)).trans ?_
  rw [← Equiv.sum_comp (ValueIdx.contrEquiv1 dot_S10000x32_S32x1_S10000x1_1_0_0_1_n_n 32 rfl rfl).symm]
  refine Finset.sum_congr rfl fun k _ => ?_
  have hk := ValueIdx.contrEquiv1_symm_val dot_S10000x32_S32x1_S10000x1_1_0_0_1_n_n 32 rfl rfl k
  have el : dot_S10000x32_S32x1_S10000x1_1_0_0_1_n_n.lhsIdx (ix2 p 0) ((ValueIdx.contrEquiv1 dot_S10000x32_S32x1_S10000x1_1_0_0_1_n_n 32 rfl rfl).symm k) = ix2 p k := funext fun a => Fin.ext (by
    match a with
    | ⟨0, _⟩ => exact lhs_d2_0 _ _
    | ⟨1, _⟩ => exact (lhs_d2_1 _ _).trans hk)
  have er : dot_S10000x32_S32x1_S10000x1_1_0_0_1_n_n.rhsIdx (ix2 p 0) ((ValueIdx.contrEquiv1 dot_S10000x32_S32x1_S10000x1_1_0_0_1_n_n 32 rfl rfl).symm k) = ix2 k 0 := funext fun a => Fin.ext (by
    match a with
    | ⟨0, _⟩ => exact (rhs_d2_0 _ _).trans hk
    | ⟨1, _⟩ => exact rhs_d2_1 _ _)
  rw [el, er]

/-- A column broadcast over 32 columns reads, at (p, c), the column's entry of row p. -/
private theorem bcast_col {α : Type} (v : S10000x1.Idx → α) (p : Fin 10000) (c : Fin 32) :
    broadcastTo S10000x32 v broadcasts_S10000x1_S10000x32 (ix2 p c) = v (ix2 p 0) := by
  refine broadcastTo_apply v broadcasts_S10000x1_S10000x32 (ix2 p c) (ix2 p (0 : Fin 1)) fun ax => ?_
  match ax with
  | ⟨0, _⟩ => rfl
  | ⟨1, _⟩ => rfl

/-- The fused kernel's stored value at row `j`: the dense arithmetic between the two aggregations, of row `j` of the
    aggregate (`v10`), the in-degree (`v0`) and the out-degree (`v5`) blocks and of the whole weight and bias blocks.
    The second product is the sum over the 32 hidden features; in each term the first product is a single product,
    the bias row and the out-degree column are read through their broadcasts, and the rounding steps are the identity
    on extended reals. -/
theorem mid_payload (v0 v5 v10 : Vec Ideal S10000x1 .f32) (v13 v17 : Vec Ideal S1x32 .f32) (v25 : Vec Ideal S32x1 .f32)
    (j : S10000x1.Idx) :
    k1_pay1 (F := Ideal) v0 v5 v10 v13 v17 v25 j = Cert.Spec.midRow (v10 j) (v0 j) (v5 j) v13 v17 v25 := by
  obtain ⟨p, q, rfl⟩ : ∃ (p : Fin 10000) (q : Fin 1), j = ix2 p q := ⟨j 0, j 1, eq_ix2 j⟩
  obtain rfl : q = 0 := Subsingleton.elim q 0
  unfold k1_pay1
  simp only [shapeCast_self]
  refine (mm2 _ _ p).trans ?_
  unfold Cert.Spec.midRow
  refine Finset.sum_congr rfl fun k _ => ?_
  show (max (matmul (F := Ideal) dot_S10000x1_S1x32_S10000x32_1_0_0_1_n_n none _ _ (constant (F := Ideal) S10000x32 .f32 0x00000000#32) (ix2 p k)
            + broadcastTo S10000x32 v17 broadcasts_S1x32_S10000x32 (ix2 p k)) Cert.Spec.zero
          * broadcastTo S10000x32 (rsqrt (maximumf v5 (broadcast S10000x1 Cert.Spec.one))) broadcasts_S10000x1_S10000x32 (ix2 p k))
        * v25 (ix2 k 0) = _
  rw [mm1, broadcastTo_1b_ab_apply, bcast_col]
  rfl

/-- A one-entry array broadcast over the rows reads its one entry at every row. -/
private theorem bcast11 (v : Vec Ideal S1x1 .f32) (j : S10000x1.Idx) :
    broadcastTo S10000x1 v broadcasts_S1x1_S10000x1 j = v (ix2 0 0) := by
  refine broadcastTo_apply v broadcasts_S1x1_S10000x1 j (ix2 (0 : Fin 1) (0 : Fin 1)) fun ax => ?_
  match ax with
  | ⟨0, _⟩ => rfl
  | ⟨1, _⟩ => rfl

/-- The last kernel's stored value at row `j`: the aggregate times the in-degree normaliser, plus the bias. -/
theorem post_payload (v0 v5 : Vec Ideal S10000x1 .f32) (v8 : Vec Ideal S1x1 .f32) (j : S10000x1.Idx) :
    k2_pay1 (F := Ideal) v0 v5 v8 j = Cert.Spec.postRow (v5 j) (v0 j) (v8 (ix2 0 0)) := by
  unfold k2_pay1
  simp only [shapeCast_self]
  show v5 j * Ideal.rsqrt (max (v0 j) Cert.Spec.one) + broadcastTo S10000x1 v8 broadcasts_S1x1_S10000x1 j = _
  rw [bcast11]
  rfl

end Cert.KernelValue

end
-- ==== Proof.Regions.lean ====
/-
  Each of the three kernel launches, as one function of the arrays it finds: the launch walks ten blocks of 10000 rows,
  block `t` of the result being the body's value on block `t` of the row-blocked operands (the small weight and bias
  operands are fetched whole); the blocks tile the result, so the result array is, row by row, the node arithmetic of
  `Cert.Spec` applied to the same row of the operand arrays.
-/
import proofs.«160025_j60833916780698_1_alg».proof.Proof.Gen.KernelIdeal.Frame
import proofs.«160025_j60833916780698_1_alg».proof.Proof.Payload
import Idealize.ShloMosaic.Lib.Pipeline.Value

set_option maxRecDepth 16384

noncomputable section

namespace Cert.KernelValue

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-- The block offset `(0, 0)` is the zero offset on both axes. -/
theorem offs_zero : (![0, 0] : Fin 2 → Nat) = fun _ => 0 := funext fun a => by fin_cases a <;> rfl

/-! ## The first launch: the feature times the out-degree normaliser -/

/-- At every grid point both operands' blocks sit at the result's block index, on both axes. -/
theorem aligned0 : ∀ t : Fin cfg0.N,
    win0_0.index t (0 : Fin 2) = win0_2.index t (0 : Fin 2)
    ∧ win0_0.index t (1 : Fin 2) = win0_2.index t (1 : Fin 2)
    ∧ win0_1.index t (0 : Fin 2) = win0_2.index t (0 : Fin 2)
    ∧ win0_1.index t (1 : Fin 2) = win0_2.index t (1 : Fin 2) :=
  (by decide +kernel : ∀ t : Fin grid0.N, _)

/-- Each of the ten row blocks of the result is some grid point's. -/
theorem onto0 : ∀ q : Fin 10, ∃ t : Fin cfg0.N, win0_2.index t = ![q.val, 0] :=
  (by decide +kernel : ∀ q : Fin 10, ∃ t : Fin grid0.N, win0_2.index t = ![q.val, 0])

/-- What grid point `t` writes back is block `t` of the row function of the operand arrays: row `j` of the block is
    the payload of row `j` of the operands' blocks, and those are the operand arrays' rows at the result block's own
    row `index × 10000 + j`. -/
theorem written0 (c : Dev nD) (t : Fin cfg0.N) :
    (dat0 (F := Ideal) V c).flushed 2 t
      = ((cfg0.win 2).blk t).view.read (Elt Ideal)
          (fun i => Cert.Spec.preRow (V c main_arg0 i) (V c main_v4 i)) := by
  show (cfg0.win 2).cut (grid0.coords t) ((dat0 (F := Ideal) V c).after 2 t) = _
  rw [after0_2]
  unfold out0_2
  rw [View.canon_unit_zero offs_zero]
  simp only [View.ld_unit_zero (S := S10000x1) offs_zero]
  obtain ⟨e0, e1, e2, e3⟩ := aligned0 t
  funext j
  refine (pre_payload _ _ j).trans ?_
  show Cert.Spec.preRow (V c main_arg0 (((cfg0.win 0).blk t).view.emb j)) (V c main_v4 (((cfg0.win 1).blk t).view.emb j))
     = Cert.Spec.preRow (V c main_arg0 (((cfg0.win 2).blk t).view.emb j)) (V c main_v4 (((cfg0.win 2).blk t).view.emb j))
  have h0 : ((cfg0.win 0).blk t).view.emb j = ((cfg0.win 2).blk t).view.emb j := by
    funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 1 + 1 * (j 1).val = win0_2.index t (1 : Fin 2) * 1 + 1 * (j 1).val; omega
  have h1 : ((cfg0.win 1).blk t).view.emb j = ((cfg0.win 2).blk t).view.emb j := by
    funext a; apply Fin.ext
    match a with
    | ⟨0, _⟩ => show win0_1.index t (0 : Fin 2) * 10000 + 1 * (j 0).val = win0_2.index t (0 : Fin 2) * 10000 + 1 * (j 0).val; omega
    | ⟨1, _⟩ => show win0_1.index t (1 : Fin 2) * 1 + 1 * (j 1).val = win0_2.index t (1 : Fin 2) * 1 + 1 * (j 1).val; omega
  rw [h0, h1]

/-- An index of the result array is in point `t`'s block iff each coordinate lies in the block's range on its axis. -/
theorem mem_block0 (t : Fin cfg0.N) (i : S100000x1.Idx) :
    i ∈ ((cfg0.win 2).blk t).view.set ↔ ∀ a : Fin 2, win0_2.index t a * S10000x1.size a ≤ (i a).val ∧ (i a).val < win0_2.index t a * S10000x1.size a + S10000x1.size a := by
  show i ∈ ((View.whole main_v9).slice (win0_2.rect t)).set ↔ _
  rw [View.set_slice_whole, Rect.mem_set_unit]
  exact Iff.rfl

/-- Row `r` lies in the block of the point whose block index is `r / 10000`: the ten blocks cover every row. -/
theorem covered0 (i : S100000x1.Idx) :
    ∃ t : Fin cfg0.N, (cfg0.win 2).flush t = true ∧ i ∈ ((cfg0.win 2).blk t).view.set := by
  have hi0 : (i 0).val < 100000 := (i 0).isLt
  have hi1 : (i 1).val < 1 := (i 1).isLt
  obtain ⟨t, ht⟩ := onto0 ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_block0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 1 ≤ (i 1).val ∧ (i 1).val < win0_2.index t (1 : Fin 2) * 1 + 1; omega

/-- The first launch's result array: row by row, the feature (`main_arg0`) times the normaliser of the out-degree
    (`main_v4`). -/
theorem final0 (c : Dev nD) :
    (dat0 (F := Ideal) V c).arrAt 2 cfg0.N
      = fun i => Cert.Spec.preRow (V c main_arg0 i) (V c main_v4 i) :=
  (dat0 (F := Ideal) V c).arrAt_eq_of_cover 2 (fun i => Cert.Spec.preRow (V c main_arg0 i) (V c main_v4 i))
    (fun t _ => written0 V c t) covered0

/-! ## The fused launch: the dense arithmetic between the two aggregations -/

/-- At every grid point the three row-blocked operands' blocks sit at the result's block index, and the two weights
    and the bias row are fetched at block `(0, 0)`. -/
theorem aligned1 : ∀ t : Fin cfg1.N,
    win1_0.index t (0 : Fin 2) = win1_6.index t (0 : Fin 2)
    ∧ win1_0.index t (1 : Fin 2) = win1_6.index t (1 : Fin 2)
    ∧ win1_1.index t (0 : Fin 2) = win1_6.index t (0 : Fin 2)
    ∧ win1_1.index t (1 : Fin 2) = win1_6.index t (1 : Fin 2)
    ∧ win1_2.index t (0 : Fin 2) = win1_6.index t (0 : Fin 2)
    ∧ win1_2.index t (1 : Fin 2) = win1_6.index t (1 : Fin 2)
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0 :=
  (by decide +kernel : ∀ t : Fin grid1.N, _)

/-- Each of the ten row blocks of the result is some grid point's. -/
theorem onto1 : ∀ q : Fin 10, ∃ t : Fin cfg1.N, win1_6.index t = ![q.val, 0] :=
  (by decide +kernel : ∀ q : Fin 10, ∃ t : Fin grid1.N, win1_6.index t = ![q.val, 0])

/-- What grid point `t` writes back is block `t` of the row function of the operand arrays; each small operand's
    block is its whole array. -/
theorem written1 (c : Dev nD) (t : Fin cfg1.N) :
    (dat1 (F := Ideal) V c).flushed 6 t
      = ((cfg1.win 6).blk t).view.read (Elt Ideal)
          (fun i => Cert.Spec.midRow (V c main_v19 i) (V c main_v8 i) (V c main_v4 i) (V c main_arg3) (V c main_v20) (V c main_arg5)) := by
  show (cfg1.win 6).cut (grid1.coords t) ((dat1 (F := Ideal) V c).after 6 t) = _
  rw [after1_6]
  unfold out1_6
  rw [View.canon_unit_zero offs_zero]
  simp only [View.ld_unit_zero (S := S10000x1) offs_zero, View.ld_unit_zero (S := S1x32) offs_zero,
    View.ld_unit_zero (S := S32x1) offs_zero]
  obtain ⟨e0, e1, e2, e3, e4, e5, e6, e7, e8, e9, e10, e11⟩ := aligned1 t
  funext j
  refine (mid_payload _ _ _ _ _ _ j).trans ?_
  show Cert.Spec.midRow (V c main_v19 (((cfg1.win 0).blk t).view.emb j)) (V c main_v8 (((cfg1.win 1).blk t).view.emb j))
        (V c main_v4 (((cfg1.win 2).blk t).view.emb j))
        (fun y => V c main_arg3 (((cfg1.win 3).blk t).view.emb y))
        (fun y => V c main_v20 (((cfg1.win 4).blk t).view.emb y))
        (fun y => V c main_arg5 (((cfg1.win 5).blk t).view.emb y))
     = Cert.Spec.midRow (V c main_v19 (((cfg1.win 6).blk t).view.emb j)) (V c main_v8 (((cfg1.win 6).blk t).view.emb j))
        (V c main_v4 (((cfg1.win 6).blk t).view.emb j)) (V c main_arg3) (V c main_v20) (V c main_arg5)
  have h0 : ((cfg1.win 0).blk t).view.emb j = ((cfg1.win 6).blk t).view.emb j := by
    funext a; apply Fin.ext
    match a with
    | ⟨0, _⟩ => show win1_0.index t (0 : Fin 2) * 10000 + 1 * (j 0).val = win1_6.index t (0 : Fin 2) * 10000 + 1 * (j 0).val; omega
    | ⟨1, _⟩ => show win1_0.index t (1 : Fin 2) * 1 + 1 * (j 1).val = win1_6.index t (1 : Fin 2) * 1 + 1 * (j 1).val; omega
  have h1 : ((cfg1.win 1).blk t).view.emb j = ((cfg1.win 6).blk t).view.emb j := by
    funext a; apply Fin.ext
    match a with
    | ⟨0, _⟩ => show win1_1.index t (0 : Fin 2) * 10000 + 1 * (j 0).val = win1_6.index t (0 : Fin 2) * 10000 + 1 * (j 0).val; omega
    | ⟨1, _⟩ => show win1_1.index t (1 : Fin 2) * 1 + 1 * (j 1).val = win1_6.index t (1 : Fin 2) * 1 + 1 * (j 1).val; omega
  have h2 : ((cfg1.win 2).blk t).view.emb j = ((cfg1.win 6).blk t).view.emb j := by
    funext a; apply Fin.ext
    match a with
    | ⟨0, _⟩ => show win1_2.index t (0 : Fin 2) * 10000 + 1 * (j 0).val = win1_6.index t (0 : Fin 2) * 10000 + 1 * (j 0).val; omega
    | ⟨1, _⟩ => show win1_2.index t (1 : Fin 2) * 1 + 1 * (j 1).val = win1_6.index t (1 : Fin 2) * 1 + 1 * (j 1).val; omega
  have h3 : ∀ y : S1x32.Idx, ((cfg1.win 3).blk t).view.emb y = y := by
    intro y; funext a; apply Fin.ext
    match a with
    | ⟨0, _⟩ => show win1_3.index t (0 : Fin 2) * 1 + 1 * (y 0).val = (y 0).val; omega
    | ⟨1, _⟩ => show win1_3.index t (1 : Fin 2) * 32 + 1 * (y 1).val = (y 1).val; omega
  have h4 : ∀ y : S1x32.Idx, ((cfg1.win 4).blk t).view.emb y = y := by
    intro y; funext a; apply Fin.ext
    match a with
    | ⟨0, _⟩ => show win1_4.index t (0 : Fin 2) * 1 + 1 * (y 0).val = (y 0).val; omega
    | ⟨1, _⟩ => show win1_4.index t (1 : Fin 2) * 32 + 1 * (y 1).val = (y 1).val; omega
  have h5 : ∀ y : S32x1.Idx, ((cfg1.win 5).blk t).view.emb y = y := by
    intro y; funext a; apply Fin.ext
    match a with
    | ⟨0, _⟩ => show win1_5.index t (0 : Fin 2) * 32 + 1 * (y 0).val = (y 0).val; omega
    | ⟨1, _⟩ => show win1_5.index t (1 : Fin 2) * 1 + 1 * (y 1).val = (y 1).val; omega
  rw [h0, h1, h2]
  simp only [h3, h4, h5]

/-- An index of the result array is in point `t`'s block iff each coordinate lies in the block's range on its axis. -/
theorem mem_block1 (t : Fin cfg1.N) (i : S100000x1.Idx) :
    i ∈ ((cfg1.win 6).blk t).view.set ↔ ∀ a : Fin 2, win1_6.index t a * S10000x1.size a ≤ (i a).val ∧ (i a).val < win1_6.index t a * S10000x1.size a + S10000x1.size a := by
  show i ∈ ((View.whole main_v21).slice (win1_6.rect t)).set ↔ _
  rw [View.set_slice_whole, Rect.mem_set_unit]
  exact Iff.rfl

/-- Row `r` lies in the block of the point whose block index is `r / 10000`: the ten blocks cover every row. -/
theorem covered1 (i : S100000x1.Idx) :
    ∃ t : Fin cfg1.N, (cfg1.win 6).flush t = true ∧ i ∈ ((cfg1.win 6).blk t).view.set := by
  have hi0 : (i 0).val < 100000 := (i 0).isLt
  have hi1 : (i 1).val < 1 := (i 1).isLt
  obtain ⟨t, ht⟩ := onto1 ⟨(i 0).val / 10000, by omega⟩
  have q0 : win1_6.index t (0 : Fin 2) = (i 0).val / 10000 := congrFun ht 0
  have q1 : win1_6.index t (1 : Fin 2) = 0 := congrFun ht 1
  refine ⟨t, flush1_6 t, ?_⟩
  rw [mem_block1]
  intro a
  match a with
  | ⟨0, _⟩ => show win1_6.index t (0 : Fin 2) * 10000 ≤ (i 0).val ∧ (i 0).val < win1_6.index t (0 : Fin 2) * 10000 + 10000; omega
  | ⟨1, _⟩ => show win1_6.index t (1 : Fin 2) * 1 ≤ (i 1).val ∧ (i 1).val < win1_6.index t (1 : Fin 2) * 1 + 1; omega

/-- The fused launch's result array: row by row, the dense arithmetic of the aggregate (`main_v19`), the in-degree
    (`main_v8`), the out-degree (`main_v4`), the first weight (`main_arg3`), the first bias as a row (`main_v20`) and the
    second weight (`main_arg5`). -/
theorem final1 (c : Dev nD) :
    (dat1 (F := Ideal) V c).arrAt 6 cfg1.N
      = fun i => Cert.Spec.midRow (V c main_v19 i) (V c main_v8 i) (V c main_v4 i) (V c main_arg3) (V c main_v20) (V c main_arg5) :=
  (dat1 (F := Ideal) V c).arrAt_eq_of_cover 6
    (fun i => Cert.Spec.midRow (V c main_v19 i) (V c main_v8 i) (V c main_v4 i) (V c main_arg3) (V c main_v20) (V c main_arg5))
    (fun t _ => written1 V c t) covered1

/-! ## The last launch: the aggregate times the in-degree normaliser, plus the bias -/

/-- At every grid point the two row-blocked operands' blocks sit at the result's block index, and the `[1, 1]` bias is
    fetched at block `(0, 0)`. -/
theorem aligned2 : ∀ t : Fin cfg2.N,
    win2_0.index t (0 : Fin 2) = win2_3.index t (0 : Fin 2)
    ∧ win2_0.index t (1 : Fin 2) = win2_3.index t (1 : Fin 2)
    ∧ win2_1.index t (0 : Fin 2) = win2_3.index t (0 : Fin 2)
    ∧ win2_1.index t (1 : Fin 2) = win2_3.index t (1 : Fin 2)
    ∧ win2_2.index t (0 : Fin 2) = 0
    ∧ win2_2.index t (1 : Fin 2) = 0 :=
  (by decide +kernel : ∀ t : Fin grid2.N, _)

/-- Each of the ten row blocks of the result is some grid point's. -/
theorem onto2 : ∀ q : Fin 10, ∃ t : Fin cfg2.N, win2_3.index t = ![q.val, 0] :=
  (by decide +kernel : ∀ q : Fin 10, ∃ t : Fin grid2.N, win2_3.index t = ![q.val, 0])

/-- What grid point `t` writes back is block `t` of the row function of the operand arrays; the bias block is the
    whole `[1, 1]` array. -/
theorem written2 (c : Dev nD) (t : Fin cfg2.N) :
    (dat2 (F := Ideal) V c).flushed 3 t
      = ((cfg2.win 3).blk t).view.read (Elt Ideal)
          (fun i => Cert.Spec.postRow (V c main_v31 i) (V c main_v8 i) (V c main_v32 (ix2 0 0))) := by
  show (cfg2.win 3).cut (grid2.coords t) ((dat2 (F := Ideal) V c).after 3 t) = _
  rw [after2_3]
  unfold out2_3
  rw [View.canon_unit_zero offs_zero]
  simp only [View.ld_unit_zero (S := S10000x1) offs_zero, View.ld_unit_zero (S := S1x1) offs_zero]
  obtain ⟨e0, e1, e2, e3, e4, e5⟩ := aligned2 t
  funext j
  refine (post_payload _ _ _ j).trans ?_
  show Cert.Spec.postRow (V c main_v31 (((cfg2.win 0).blk t).view.emb j)) (V c main_v8 (((cfg2.win 1).blk t).view.emb j))
        (V c main_v32 (((cfg2.win 2).blk t).view.emb (ix2 0 0)))
     = Cert.Spec.postRow (V c main_v31 (((cfg2.win 3).blk t).view.emb j)) (V c main_v8 (((cfg2.win 3).blk t).view.emb j))
        (V c main_v32 (ix2 0 0))
  have h0 : ((cfg2.win 0).blk t).view.emb j = ((cfg2.win 3).blk t).view.emb j := by
    funext a; apply Fin.ext
    match a with
    | ⟨0, _⟩ => show win2_0.index t (0 : Fin 2) * 10000 + 1 * (j 0).val = win2_3.index t (0 : Fin 2) * 10000 + 1 * (j 0).val; omega
    | ⟨1, _⟩ => show win2_0.index t (1 : Fin 2) * 1 + 1 * (j 1).val = win2_3.index t (1 : Fin 2) * 1 + 1 * (j 1).val; omega
  have h1 : ((cfg2.win 1).blk t).view.emb j = ((cfg2.win 3).blk t).view.emb j := by
    funext a; apply Fin.ext
    match a with
    | ⟨0, _⟩ => show win2_1.index t (0 : Fin 2) * 10000 + 1 * (j 0).val = win2_3.index t (0 : Fin 2) * 10000 + 1 * (j 0).val; omega
    | ⟨1, _⟩ => show win2_1.index t (1 : Fin 2) * 1 + 1 * (j 1).val = win2_3.index t (1 : Fin 2) * 1 + 1 * (j 1).val; omega
  have h2 : ((cfg2.win 2).blk t).view.emb (ix2 0 0) = (ix2 0 0 : S1x1.Idx) := by
    funext a; apply Fin.ext
    match a with
    | ⟨0, _⟩ => show win2_2.index t (0 : Fin 2) * 1 + 1 * 0 = 0; omega
    | ⟨1, _⟩ => show win2_2.index t (1 : Fin 2) * 1 + 1 * 0 = 0; omega
  rw [h0, h1, h2]

/-- An index of the result array is in point `t`'s block iff each coordinate lies in the block's range on its axis. -/
theorem mem_block2 (t : Fin cfg2.N) (i : S100000x1.Idx) :
    i ∈ ((cfg2.win 3).blk t).view.set ↔ ∀ a : Fin 2, win2_3.index t a * S10000x1.size a ≤ (i a).val ∧ (i a).val < win2_3.index t a * S10000x1.size a + S10000x1.size a := by
  show i ∈ ((View.whole main_v33).slice (win2_3.rect t)).set ↔ _
  rw [View.set_slice_whole, Rect.mem_set_unit]
  exact Iff.rfl

/-- Row `r` lies in the block of the point whose block index is `r / 10000`: the ten blocks cover every row. -/
theorem covered2 (i : S100000x1.Idx) :
    ∃ t : Fin cfg2.N, (cfg2.win 3).flush t = true ∧ i ∈ ((cfg2.win 3).blk t).view.set := by
  have hi0 : (i 0).val < 100000 := (i 0).isLt
  have hi1 : (i 1).val < 1 := (i 1).isLt
  obtain ⟨t, ht⟩ := onto2 ⟨(i 0).val / 10000, by omega⟩
  have q0 : win2_3.index t (0 : Fin 2) = (i 0).val / 10000 := congrFun ht 0
  have q1 : win2_3.index t (1 : Fin 2) = 0 := congrFun ht 1
  refine ⟨t, flush2_3 t, ?_⟩
  rw [mem_block2]
  intro a
  match a with
  | ⟨0, _⟩ => show win2_3.index t (0 : Fin 2) * 10000 ≤ (i 0).val ∧ (i 0).val < win2_3.index t (0 : Fin 2) * 10000 + 10000; omega
  | ⟨1, _⟩ => show win2_3.index t (1 : Fin 2) * 1 ≤ (i 1).val ∧ (i 1).val < win2_3.index t (1 : Fin 2) * 1 + 1; omega

/-- The last launch's result array: row by row, the aggregate (`main_v31`) times the normaliser of the in-degree
    (`main_v8`), plus the second bias (`main_v32`, a `[1, 1]` array). -/
theorem final2 (c : Dev nD) :
    (dat2 (F := Ideal) V c).arrAt 3 cfg2.N
      = fun i => Cert.Spec.postRow (V c main_v31 i) (V c main_v8 i) (V c main_v32 (ix2 0 0)) :=
  (dat2 (F := Ideal) V c).arrAt_eq_of_cover 3
    (fun i => Cert.Spec.postRow (V c main_v31 i) (V c main_v8 i) (V c main_v32 (ix2 0 0)))
    (fun t _ => written2 V c t) covered2

end Cert.KernelValue

end
-- ==== Proof.KernelOut.lean ====
/-
  The kernel's result as one function of @main's arguments, at the exact reading.

  @main is: the two degree histograms (scatter-adds of ones by source and by destination node, each reshaped to a
  column); the first launch (feature × out-degree normaliser); a gather by source and scatter-add by destination (the
  first aggregation); the fused launch (the dense arithmetic between the aggregations); the second aggregation; the
  last launch (× in-degree normaliser, + bias). The buffer contents at each boundary between these stretches are a
  fold through @main; here the fold is walked from the launch memory to the result buffer, each launch's result array
  read as its function of the arrays it finds (`final0`, `final1`, `final2`) and each host stretch's results as the host
  operations' terms of what the stretch finds.
-/
import proofs.«160025_j60833916780698_1_alg».proof.Proof.Gen.KernelIdeal.Frame
import proofs.«160025_j60833916780698_1_alg».proof.Proof.Regions
import Idealize.ShloMosaic.Lib.StableHlo.Run

set_option maxRecDepth 16384

noncomputable section

namespace Cert.KernelValue

open Idealize.ShloMosaic Idealize.ShloMosaic.TcCoe Idealize.ShloMosaic.ValueIdx Idealize.SL.Sem Idealize.ShloMosaic.StableHlo
open Cert.KernelIdeal Cert.KernelIdeal.Gen

/-- An edge-index array (source or destination node of each of the 1.6 million edges). -/
abbrev Ids := (⟨S1600000, .i32⟩ : BufTy).Contents (Elt Ideal)
/-- A column of one scalar per node. -/
abbrev Col := (⟨S100000x1, .f32⟩ : BufTy).Contents (Elt Ideal)

/-- The degree histogram of an edge-index array, as a column: ones scatter-added at the indices into zeros. -/
def degCol (idx : Ids) : Col :=
  shapeCast S100000x1 (Host.scatterAdd (F := Ideal) scatter_S100000_S1600000x1_S1600000_n_0_0_1
    (broadcastInDim S100000 ![] bcast_S_S100000 (constant (F := Ideal) S_ .f32 0x00000000#32))
    (broadcastInDim S1600000x1 ![0] bcast_S1600000_S1600000x1_0 idx)
    (broadcastInDim S1600000 ![] bcast_S_S1600000 (constant (F := Ideal) S_ .f32 0x3F800000#32))) shapeCasts_S100000_S100000x1

/-- One aggregation: each edge reads its source node's scalar (a negative index wrapped once, by adding the node count)
    and adds it into its destination node's, starting from zeros. -/
def aggOf (h : Col) (src dst : Ids) : Col :=
  Host.scatterAdd (F := Ideal) scatter_S100000x1_S1600000x1_S1600000x1_1_0_0_1
    (broadcastInDim S100000x1 ![] bcast_S_S100000x1 (constant (F := Ideal) S_ .f32 0x00000000#32))
    (broadcastInDim S1600000x1 ![0] bcast_S1600000_S1600000x1_0 dst)
    (Host.gather gather_S100000x1_S1600000x1_S1600000x1_1_0_n_n_0_1_11 h
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

/-- The first launch's result column: each node's feature times its out-degree normaliser. -/
def h1 (x : Col) (src : Ids) : Col := fun i => Cert.Spec.preRow (x i) (degCol src i)

/-- The fused launch's result column: the dense arithmetic of the first aggregate, the two degrees, the weights and
    the first bias (as a row). -/
def hw (x : Col) (src dst : Ids) (w1 : (⟨S1x32, .f32⟩ : BufTy).Contents (Elt Ideal)) (b1 : (⟨S32, .f32⟩ : BufTy).Contents (Elt Ideal))
    (w2 : (⟨S32x1, .f32⟩ : BufTy).Contents (Elt Ideal)) : Col :=
  fun i => Cert.Spec.midRow (aggOf (h1 x src) src dst i) (degCol dst i) (degCol src i) w1
    (shapeCast S1x32 b1 shapeCasts_S32_S1x32) w2

/-- The kernel's result: the second aggregate times the in-degree normaliser, plus the second bias. -/
def out (x : Col) (src dst : Ids) (w1 : (⟨S1x32, .f32⟩ : BufTy).Contents (Elt Ideal)) (b1 : (⟨S32, .f32⟩ : BufTy).Contents (Elt Ideal))
    (w2 : (⟨S32x1, .f32⟩ : BufTy).Contents (Elt Ideal)) (b2 : (⟨S1, .f32⟩ : BufTy).Contents (Elt Ideal)) : Col :=
  fun i => Cert.Spec.postRow (aggOf (hw x src dst w1 b1 w2) src dst i) (degCol dst i)
    (shapeCast S1x1 b2 shapeCasts_S1_S1x1 (ix2 0 0))

variable (m : (ℓ : Loc nD τ sig) → Buf (Elt Ideal) ℓ) (ρ : Dev nD → PrngReg)

/-- A host stretch read at one buffer: the stretch's operations applied to what it finds. -/
local macro "host_read" : tactic => `(tactic| (show StableHlo.after _ _ _ = _; after_results))

/-! ## Before the first launch: the arguments as launched, and the two degree columns -/

theorem W1_arg0 (c : Dev nD) : W1 m ρ c (Proc.devRef .tc main_arg0) = m ((c : Thread nD τ).loc main_arg0) := by host_read
theorem W1_arg1 (c : Dev nD) : W1 m ρ c (Proc.devRef .tc main_arg1) = m ((c : Thread nD τ).loc main_arg1) := by host_read
theorem W1_arg2 (c : Dev nD) : W1 m ρ c (Proc.devRef .tc main_arg2) = m ((c : Thread nD τ).loc main_arg2) := by host_read
theorem W1_arg3 (c : Dev nD) : W1 m ρ c (Proc.devRef .tc main_arg3) = m ((c : Thread nD τ).loc main_arg3) := by host_read
theorem W1_arg4 (c : Dev nD) : W1 m ρ c (Proc.devRef .tc main_arg4) = m ((c : Thread nD τ).loc main_arg4) := by host_read
theorem W1_arg5 (c : Dev nD) : W1 m ρ c (Proc.devRef .tc main_arg5) = m ((c : Thread nD τ).loc main_arg5) := by host_read
theorem W1_arg6 (c : Dev nD) : W1 m ρ c (Proc.devRef .tc main_arg6) = m ((c : Thread nD τ).loc main_arg6) := by host_read
theorem W1_v4 (c : Dev nD) : W1 m ρ c (Proc.devRef .tc main_v4) = degCol (m ((c : Thread nD τ).loc main_arg1)) := by
  host_read; rfl
theorem W1_v8 (c : Dev nD) : W1 m ρ c (Proc.devRef .tc main_v8) = degCol (m ((c : Thread nD τ).loc main_arg2)) := by
  host_read; rfl

/-! ## After the first launch: its result column; everything else as before it -/

theorem W2_arg1 (c : Dev nD) : W2 m ρ c (Proc.devRef .tc main_arg1) = m ((c : Thread nD τ).loc main_arg1) :=
  (W2_of_ne m ρ c main_arg1 (by decide)).trans (W1_arg1 m ρ c)
theorem W2_arg2 (c : Dev nD) : W2 m ρ c (Proc.devRef .tc main_arg2) = m ((c : Thread nD τ).loc main_arg2) :=
  (W2_of_ne m ρ c main_arg2 (by decide)).trans (W1_arg2 m ρ c)
theorem W2_arg3 (c : Dev nD) : W2 m ρ c (Proc.devRef .tc main_arg3) = m ((c : Thread nD τ).loc main_arg3) :=
  (W2_of_ne m ρ c main_arg3 (by decide)).trans (W1_arg3 m ρ c)
theorem W2_arg4 (c : Dev nD) : W2 m ρ c (Proc.devRef .tc main_arg4) = m ((c : Thread nD τ).loc main_arg4) :=
  (W2_of_ne m ρ c main_arg4 (by decide)).trans (W1_arg4 m ρ c)
theorem W2_arg5 (c : Dev nD) : W2 m ρ c (Proc.devRef .tc main_arg5) = m ((c : Thread nD τ).loc main_arg5) :=
  (W2_of_ne m ρ c main_arg5 (by decide)).trans (W1_arg5 m ρ c)
theorem W2_arg6 (c : Dev nD) : W2 m ρ c (Proc.devRef .tc main_arg6) = m ((c : Thread nD τ).loc main_arg6) :=
  (W2_of_ne m ρ c main_arg6 (by decide)).trans (W1_arg6 m ρ c)
theorem W2_v8 (c : Dev nD) : W2 m ρ c (Proc.devRef .tc main_v8) = degCol (m ((c : Thread nD τ).loc main_arg2)) :=
  (W2_of_ne m ρ c main_v8 (by decide)).trans (W1_v8 m ρ c)
/-- The out-degree column is an operand of the first launch, which leaves it as it found it. -/
theorem W2_v4 (c : Dev nD) : W2 m ρ c (Proc.devRef .tc main_v4) = degCol (m ((c : Thread nD τ).loc main_arg1)) :=
  ((W2_arr m ρ c 1).trans (((dat0 (V1 m ρ) c).arrAt_in 1 rfl _).trans (A_eq0 (V1 m ρ) c 1))).trans (W1_v4 m ρ c)
theorem W2_v9 (c : Dev nD) : W2 m ρ c (Proc.devRef .tc main_v9) = h1 (m ((c : Thread nD τ).loc main_arg0)) (m ((c : Thread nD τ).loc main_arg1)) := by
  refine (W2_arr m ρ c 2).trans ?_
  rw [final0 (V1 m ρ) c]
  show (fun i => Cert.Spec.preRow (W1 m ρ c (Proc.devRef .tc main_arg0) i) (W1 m ρ c (Proc.devRef .tc main_v4) i)) = _
  rw [W1_arg0, W1_v4]; rfl

/-! ## Before the fused launch: the first aggregate and the first bias as a row -/

theorem W3_arg1 (c : Dev nD) : W3 m ρ c (Proc.devRef .tc main_arg1) = m ((c : Thread nD τ).loc main_arg1) := by
  host_read; exact W2_arg1 m ρ c
theorem W3_arg2 (c : Dev nD) : W3 m ρ c (Proc.devRef .tc main_arg2) = m ((c : Thread nD τ).loc main_arg2) := by
  host_read; exact W2_arg2 m ρ c
theorem W3_arg3 (c : Dev nD) : W3 m ρ c (Proc.devRef .tc main_arg3) = m ((c : Thread nD τ).loc main_arg3) := by
  host_read; exact W2_arg3 m ρ c
theorem W3_arg5 (c : Dev nD) : W3 m ρ c (Proc.devRef .tc main_arg5) = m ((c : Thread nD τ).loc main_arg5) := by
  host_read; exact W2_arg5 m ρ c
theorem W3_arg6 (c : Dev nD) : W3 m ρ c (Proc.devRef .tc main_arg6) = m ((c : Thread nD τ).loc main_arg6) := by
  host_read; exact W2_arg6 m ρ c
theorem W3_v4 (c : Dev nD) : W3 m ρ c (Proc.devRef .tc main_v4) = degCol (m ((c : Thread nD τ).loc main_arg1)) := by
  host_read; exact W2_v4 m ρ c
theorem W3_v8 (c : Dev nD) : W3 m ρ c (Proc.devRef .tc main_v8) = degCol (m ((c : Thread nD τ).loc main_arg2)) := by
  host_read; exact W2_v8 m ρ c
theorem W3_v19 (c : Dev nD) : W3 m ρ c (Proc.devRef .tc main_v19)
    = aggOf (h1 (m ((c : Thread nD τ).loc main_arg0)) (m ((c : Thread nD τ).loc main_arg1))) (m ((c : Thread nD τ).loc main_arg1)) (m ((c : Thread nD τ).loc main_arg2)) := by
  host_read
  rw [W2_arg1, W2_arg2, W2_v9]; rfl
theorem W3_v20 (c : Dev nD) : W3 m ρ c (Proc.devRef .tc main_v20) = shapeCast S1x32 (m ((c : Thread nD τ).loc main_arg4)) shapeCasts_S32_S1x32 := by
  host_read
  rw [W2_arg4]; rfl

/-! ## After the fused launch -/

theorem W4_arg1 (c : Dev nD) : W4 m ρ c (Proc.devRef .tc main_arg1) = m ((c : Thread nD τ).loc main_arg1) :=
  (W4_of_ne m ρ c main_arg1 (by decide)).trans (W3_arg1 m ρ c)
theorem W4_arg2 (c : Dev nD) : W4 m ρ c (Proc.devRef .tc main_arg2) = m ((c : Thread nD τ).loc main_arg2) :=
  (W4_of_ne m ρ c main_arg2 (by decide)).trans (W3_arg2 m ρ c)
theorem W4_arg6 (c : Dev nD) : W4 m ρ c (Proc.devRef .tc main_arg6) = m ((c : Thread nD τ).loc main_arg6) :=
  (W4_of_ne m ρ c main_arg6 (by decide)).trans (W3_arg6 m ρ c)
/-- The in-degree column is an operand of the fused launch, which leaves it as it found it. -/
theorem W4_v8 (c : Dev nD) : W4 m ρ c (Proc.devRef .tc main_v8) = degCol (m ((c : Thread nD τ).loc main_arg2)) :=
  ((W4_arr m ρ c 1).trans (((dat1 (V3 m ρ) c).arrAt_in 1 rfl _).trans (A_eq1 (V3 m ρ) c 1))).trans (W3_v8 m ρ c)
theorem W4_v21 (c : Dev nD) : W4 m ρ c (Proc.devRef .tc main_v21)
    = hw (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W4_arr m ρ c 6).trans ?_
  rw [final1 (V3 m ρ) c]
  show (fun i => Cert.Spec.midRow (W3 m ρ c (Proc.devRef .tc main_v19) i) (W3 m ρ c (Proc.devRef .tc main_v8) i)
    (W3 m ρ c (Proc.devRef .tc main_v4) i) (W3 m ρ c (Proc.devRef .tc main_arg3)) (W3 m ρ c (Proc.devRef .tc main_v20))
    (W3 m ρ c (Proc.devRef .tc main_arg5))) = _
  rw [W3_v19, W3_v8, W3_v4, W3_arg3, W3_v20, W3_arg5]; rfl

/-! ## Before the last launch: the second aggregate and the second bias as a `[1, 1]` array -/

theorem W5_v8 (c : Dev nD) : W5 m ρ c (Proc.devRef .tc main_v8) = degCol (m ((c : Thread nD τ).loc main_arg2)) := by
  host_read; exact W4_v8 m ρ c
theorem W5_v31 (c : Dev nD) : W5 m ρ c (Proc.devRef .tc main_v31)
    = aggOf (hw (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))
        (m ((c : Thread nD τ).loc main_arg1)) (m ((c : Thread nD τ).loc main_arg2)) := by
  host_read
  rw [W4_arg1, W4_arg2, W4_v21]; rfl
theorem W5_v32 (c : Dev nD) : W5 m ρ c (Proc.devRef .tc main_v32) = shapeCast S1x1 (m ((c : Thread nD τ).loc main_arg6)) shapeCasts_S1_S1x1 := by
  host_read
  rw [W4_arg6]; rfl

/-! ## The result -/

/-- The result buffer after @main: the kernel's function `out` of the launch contents of the seven arguments. -/
theorem kernel_out (c : Dev nD) : W6 m ρ c (Proc.devRef .tc main_v33)
    = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W6_arr m ρ c 3).trans ?_
  rw [final2 (V5 m ρ) c]
  show (fun i => Cert.Spec.postRow (W5 m ρ c (Proc.devRef .tc main_v31) i) (W5 m ρ c (Proc.devRef .tc main_v8) i)
    (W5 m ρ c (Proc.devRef .tc main_v32) (ix2 0 0))) = _
  rw [W5_v31, W5_v8, W5_v32]; rfl

end Cert.KernelValue

end
-- ==== Proof.RefBridge.lean ====
/-
  The reference's three dense stages read at one index, at the exact reading: the stage before the first aggregation,
  the stage between the two aggregations and the stage after the second are the node arithmetic of `Cert.Spec` applied
  to the same row of the stage's operands. The reference scales by the in-degree normaliser AFTER its 1 → 32 product
  where the kernel scales before it; the two agree because the product has a single term and multiplication of
  extended reals is commutative and associative (`Cert.Spec.scale_after`).
-/
import proofs.«160025_j60833916780698_1_alg».proof.Proof.Gen.ReferenceIdeal.Read
import proofs.«160025_j60833916780698_1_alg».proof.Proof.Spec
import Idealize.ShloMosaic.PureOps.Ideal.Laws
import Idealize.ShloMosaic.Lib.ValueIdx

noncomputable section

namespace Cert.RefValue

open Idealize.ShloMosaic Idealize.ShloMosaic.ValueIdx Cert.ReferenceIdeal Cert.ReferenceIdeal.Read

/-- The reference computes the two degree arrays twice (once per layer): the second computation is the first. -/
theorem deg_out_again (x1 : (⟨S1600000, .i32⟩ : BufTy).Contents (Elt Ideal)) :
    val_main_v36 (F := Ideal) x1 = val_main_v3 (F := Ideal) x1 := by
  -- both sides are the same scatter-add of ones into zeros at the same indices, once the operands' names are unfolded
  unfold val_main_v36 val_main_v3 val_main_v34 val_main_v1 val_main_v35 val_main_v2 val_main_v33 val_main_v0
    val_main_cst_7 val_main_cst_0 val_main_cst_6 val_main_cst
  rfl
theorem deg_in_again (x2 : (⟨S1600000, .i32⟩ : BufTy).Contents (Elt Ideal)) :
    val_main_v39 (F := Ideal) x2 = val_main_v6 (F := Ideal) x2 := by
  unfold val_main_v39 val_main_v6 val_main_v37 val_main_v4 val_main_v38 val_main_v5 val_main_v33 val_main_v0
    val_main_cst_8 val_main_cst_1 val_main_cst_6 val_main_cst
  rfl

/-- Before the first aggregation: the feature times the normaliser of the node's out-degree (`val_main_v3`). -/
theorem ref_pre (x0 : (⟨S100000x1, .f32⟩ : BufTy).Contents (Elt Ideal)) (x1 : (⟨S1600000, .i32⟩ : BufTy).Contents (Elt Ideal))
    (i : S100000x1.Idx) :
    val_main_v14 (F := Ideal) x0 x1 i = Cert.Spec.preRow (x0 i) (val_main_v3 (F := Ideal) x1 (Cert.Spec.node i)) := by
  -- the column broadcast of the normaliser reads it at the index's row
  have e13 : idx_main_v13 i = Cert.Spec.node i := funext fun a => Fin.ext (by match a with | ⟨0, _⟩ => rfl)
  rw [val_main_v14_apply, val_main_v13_apply, val_main_v9_apply, val_main_v8_apply, val_main_v7_apply, val_main_cst_2_apply]
  unfold Cert.Spec.preRow Cert.Spec.rs
  simp only [e13, Ideal.mulf_def, Ideal.maximumf_def, Ideal.hostUnary_rsqrt_def, Ideal.ofBits_def]

/-- Between the aggregations: the dense arithmetic of the first aggregate (`val_main_v24`) at the node, the node's
    in-degree (`val_main_v6`) and out-degree (`val_main_v3`), the weights and the first bias. -/
theorem ref_mid (x0 : (⟨S100000x1, .f32⟩ : BufTy).Contents (Elt Ideal)) (x1 x2 : (⟨S1600000, .i32⟩ : BufTy).Contents (Elt Ideal))
    (x3 : (⟨S1x32, .f32⟩ : BufTy).Contents (Elt Ideal)) (x4 : (⟨S32, .f32⟩ : BufTy).Contents (Elt Ideal))
    (x5 : (⟨S32x1, .f32⟩ : BufTy).Contents (Elt Ideal)) (i : S100000x1.Idx) :
    val_main_v49 (F := Ideal) x0 x1 x2 x3 x4 x5 i
      = Cert.Spec.midRow (val_main_v24 (F := Ideal) x0 x1 x2 i) (val_main_v6 (F := Ideal) x2 (Cert.Spec.node i))
          (val_main_v3 (F := Ideal) x1 (Cert.Spec.node i)) x3 (fun y => x4 (Cert.Spec.hid y)) x5 := by
  -- the 32 → 1 product is a sum over the hidden features; the claim is proved one hidden feature k at a time
  rw [val_main_v49_apply]
  unfold Cert.Spec.midRow
  refine Finset.sum_congr rfl fun k _ => ?_
  -- an index of an [n, 1] array has second coordinate 0
  have hi1 : (i 1).val = 0 := by have := idx2_lt1 i; omega
  -- the second weight matrix is read at row k, column 0
  have er49 : ridx_main_v49 i k = ix2 k 0 := funext fun a => Fin.ext (by
    match a with
    | ⟨0, _⟩ => rfl
    | ⟨1, _⟩ => exact hi1)
  -- the one term of the 1 → 32 product reads the aggregate at the index itself and the first weight matrix at row 0, column k
  have el25 : lidx_main_v25 (lidx_main_v49 i k) 0 = i := funext fun a => Fin.ext (by
    match a with
    | ⟨0, _⟩ => rfl
    | ⟨1, _⟩ => exact hi1.symm)
  have er25 : ridx_main_v25 (lidx_main_v49 i k) 0 = ix2 0 k := funext fun a => Fin.ext (by
    match a with
    | ⟨0, _⟩ => rfl
    | ⟨1, _⟩ => rfl)
  -- both normalisers are broadcast along the hidden axis from the index's row, the bias along the rows from column k
  have e26 : idx_main_v26 (idx_main_v27 (lidx_main_v49 i k)) = Cert.Spec.node i :=
    funext fun a => Fin.ext (by match a with | ⟨0, _⟩ => rfl)
  have e46 : idx_main_v46 (idx_main_v47 (lidx_main_v49 i k)) = Cert.Spec.node i :=
    funext fun a => Fin.ext (by match a with | ⟨0, _⟩ => rfl)
  have e29 : idx_main_v29 (idx_main_v30 (lidx_main_v49 i k)) = Cert.Spec.hid (ix2 0 k) :=
    funext fun a => Fin.ext (by match a with | ⟨0, _⟩ => rfl)
  rw [val_main_v48_apply, val_main_v32_apply, val_main_v31_apply, val_main_v28_apply, val_main_v25_apply,
    val_main_v27_apply, val_main_v26_apply, val_main_v12_apply, val_main_v11_apply, val_main_v10_apply, val_main_cst_3_apply,
    val_main_v30_apply, val_main_v29_apply, val_main_call0_v0_apply, val_main_call0_cst_apply,
    val_main_v47_apply, val_main_v46_apply, val_main_v42_apply, val_main_v41_apply, val_main_v40_apply, val_main_cst_9_apply,
    deg_out_again, Fin.sum_univ_one]
  rw [el25, er25, e26, e46, e29, er49]
  unfold Cert.Spec.rs
  simp only [Ideal.mulf_def, Ideal.addf_def, Ideal.maximumf_def, Ideal.hostUnary_rsqrt_def, Ideal.ofBits_def]
  -- (a · w) · r = (a · r) · w: the in-degree normaliser moves in front of the first weight
  rw [Cert.Spec.scale_after (val_main_v24 (F := Ideal) x0 x1 x2 i)]

/-- After the second aggregation: the second aggregate (`val_main_v59`) times the normaliser of the node's in-degree,
    plus the second bias. -/
theorem ref_post (x0 : (⟨S100000x1, .f32⟩ : BufTy).Contents (Elt Ideal)) (x1 x2 : (⟨S1600000, .i32⟩ : BufTy).Contents (Elt Ideal))
    (x3 : (⟨S1x32, .f32⟩ : BufTy).Contents (Elt Ideal)) (x4 : (⟨S32, .f32⟩ : BufTy).Contents (Elt Ideal))
    (x5 : (⟨S32x1, .f32⟩ : BufTy).Contents (Elt Ideal)) (x6 : (⟨S1, .f32⟩ : BufTy).Contents (Elt Ideal)) (i : S100000x1.Idx) :
    val_main_v64 (F := Ideal) x0 x1 x2 x3 x4 x5 x6 i
      = Cert.Spec.postRow (val_main_v59 (F := Ideal) x0 x1 x2 x3 x4 x5 i) (val_main_v6 (F := Ideal) x2 (Cert.Spec.node i))
          (x6 Cert.Spec.only) := by
  -- the normaliser's column broadcast reads it at the index's row; the bias's two broadcasts read its one element
  have e60 : idx_main_v60 i = Cert.Spec.node i := funext fun a => Fin.ext (by match a with | ⟨0, _⟩ => rfl)
  have e62 : idx_main_v62 (idx_main_v63 i) = Cert.Spec.only := funext fun a => Fin.ext (by match a with | ⟨0, _⟩ => rfl)
  rw [val_main_v64_apply, val_main_v61_apply, val_main_v60_apply, val_main_v45_apply, val_main_v44_apply, val_main_v43_apply,
    val_main_cst_10_apply, val_main_v63_apply, val_main_v62_apply, deg_in_again]
  unfold Cert.Spec.postRow Cert.Spec.rs
  simp only [e60, e62, Ideal.mulf_def, Ideal.addf_def, Ideal.maximumf_def, Ideal.hostUnary_rsqrt_def, Ideal.ofBits_def]

end Cert.RefValue

end
-- ==== Proof.ShapeReads.lean ====
/-
  Three reshapes read at an index: a vector of `n` entries reshaped to a column `[n, 1]`, to a row `[1, n]`, and the
  one-entry vector reshaped to `[1, 1]`. A reshape keeps the row-major position, so the column's entry at row `r` is the
  vector's entry `r`, and the row's entry at column `k` is the vector's entry `k`.
-/
import proofs.«160025_j60833916780698_1_alg».proof.Proof.Spec
import Idealize.ShloMosaic.Lib.Pipeline.Value

noncomputable section

namespace Cert.Spec

open Idealize.ShloMosaic Idealize.ShloMosaic.ValueIdx

theorem shapeCast_col {α : Type} (v : (⟨1, ![100000]⟩ : Shape).Idx → α)
    (h : (⟨1, ![100000]⟩ : Shape).ShapeCasts ⟨2, ![100000, 1]⟩) (i : (⟨2, ![100000, 1]⟩ : Shape).Idx) :
    shapeCast ⟨2, ![100000, 1]⟩ v h i = v (node i) := by
  -- the column's position is row · 1 + column, and the column coordinate of an [n, 1] index is 0
  refine shapeCast_apply v h i (node i) ?_
  have h1 : (i 1).val = 0 := by have := idx2_lt1 i; omega
  rw [Shape.rowMajor_val_two, Shape.rowMajor_val_one]
  show (i 0).val = (i 0).val * 1 + (i 1).val
  omega

theorem shapeCast_row {α : Type} (v : (⟨1, ![32]⟩ : Shape).Idx → α)
    (h : (⟨1, ![32]⟩ : Shape).ShapeCasts ⟨2, ![1, 32]⟩) (y : (⟨2, ![1, 32]⟩ : Shape).Idx) :
    shapeCast ⟨2, ![1, 32]⟩ v h y = v (hid y) := by
  -- the row's position is row · 32 + column, and the row coordinate of a [1, n] index is 0
  refine shapeCast_apply v h y (hid y) ?_
  have h0 : (y 0).val = 0 := by have := idx2_lt0 y; omega
  rw [Shape.rowMajor_val_two, Shape.rowMajor_val_one]
  show (y 1).val = (y 0).val * 32 + (y 1).val
  omega

theorem shapeCast_one {α : Type} (v : (⟨1, ![1]⟩ : Shape).Idx → α)
    (h : (⟨1, ![1]⟩ : Shape).ShapeCasts ⟨2, ![1, 1]⟩) (y : (⟨2, ![1, 1]⟩ : Shape).Idx) :
    shapeCast ⟨2, ![1, 1]⟩ v h y = v only := by
  -- both coordinates of a [1, 1] index are 0, so its position is 0, the position of the vector's one entry
  refine shapeCast_apply v h y only ?_
  have h0 : (y 0).val = 0 := by have := idx2_lt0 y; omega
  have h1 : (y 1).val = 0 := by have := idx2_lt1 y; omega
  rw [Shape.rowMajor_val_two, Shape.rowMajor_val_one]
  show 0 = (y 0).val * 1 + (y 1).val
  omega

end Cert.Spec

end
-- ==== Proof.Bridge.lean ====
/-
  The kernel's function of the arguments is the reference's.

  Both programs compute the two degree histograms, scale the feature by the out-degree normaliser, aggregate over the
  edges, run the dense arithmetic between the aggregations, aggregate again, and scale by the in-degree normaliser and
  add the bias. The aggregations (a gather by source node, a scatter-add by destination node) and the histograms are
  the SAME host operations in both programs, applied to equal operands, so they are carried as they are and never
  opened; the dense stages agree row by row (`ref_pre`, `ref_mid`, `ref_post` read the reference's stages as the node
  arithmetic the kernel's launches compute).
-/
import proofs.«160025_j60833916780698_1_alg».proof.Proof.KernelOut
import proofs.«160025_j60833916780698_1_alg».proof.Proof.RefBridge
import proofs.«160025_j60833916780698_1_alg».proof.Proof.ShapeReads

set_option maxRecDepth 16384

noncomputable section

namespace Cert.Bridge

open Idealize.ShloMosaic Idealize.ShloMosaic.ValueIdx
open Cert.KernelValue Cert.RefValue Cert.ReferenceIdeal.Read

/-- The kernel's out-degree column at a row is the reference's out-degree histogram at that node. -/
theorem degCol_out (idx : Ids) (i : Cert.KernelIdeal.S100000x1.Idx) :
    degCol idx i = val_main_v3 (F := Ideal) idx (Cert.Spec.node i) := by
  unfold degCol val_main_v3 val_main_v1 val_main_v2 val_main_v0 val_main_cst val_main_cst_0
  exact Cert.Spec.shapeCast_col _ _ i

/-- The kernel's in-degree column at a row is the reference's in-degree histogram at that node. -/
theorem degCol_in (idx : Ids) (i : Cert.KernelIdeal.S100000x1.Idx) :
    degCol idx i = val_main_v6 (F := Ideal) idx (Cert.Spec.node i) := by
  unfold degCol val_main_v6 val_main_v4 val_main_v5 val_main_v0 val_main_cst val_main_cst_1
  exact Cert.Spec.shapeCast_col _ _ i

variable (x0 : Col) (x1 x2 : Ids) (x3 : (⟨Cert.KernelIdeal.S1x32, .f32⟩ : BufTy).Contents (Elt Ideal))
  (x4 : (⟨Cert.KernelIdeal.S32, .f32⟩ : BufTy).Contents (Elt Ideal)) (x5 : (⟨Cert.KernelIdeal.S32x1, .f32⟩ : BufTy).Contents (Elt Ideal))
  (x6 : (⟨Cert.KernelIdeal.S1, .f32⟩ : BufTy).Contents (Elt Ideal))

/-- The first launch's result is the reference's scaled feature. -/
theorem h1_eq : h1 x0 x1 = val_main_v14 (F := Ideal) x0 x1 := by
  funext i
  rw [ref_pre]
  unfold h1
  rw [degCol_out]

/-- The first aggregate: the same gather and scatter-add of equal operands. -/
theorem agg1_eq : aggOf (h1 x0 x1) x1 x2 = val_main_v24 (F := Ideal) x0 x1 x2 := by
  rw [h1_eq]
  unfold aggOf val_main_v24 val_main_v21 val_main_v22 val_main_v23 val_main_v20 val_main_v19 val_main_v18 val_main_v17
    val_main_v16 val_main_v15 val_main_cst_5 val_main_c val_main_c_4
  rfl

/-- The fused launch's result is the reference's stage between the aggregations. -/
theorem hw_eq : hw x0 x1 x2 x3 x4 x5 = val_main_v49 (F := Ideal) x0 x1 x2 x3 x4 x5 := by
  funext i
  rw [ref_mid]
  unfold hw
  rw [agg1_eq, degCol_in, degCol_out]
  have hb : (shapeCast Cert.KernelIdeal.S1x32 x4 Cert.KernelIdeal.Facts₀.shapeCasts_S32_S1x32)
      = fun y => x4 (Cert.Spec.hid y) := funext fun y => Cert.Spec.shapeCast_row _ _ y
  rw [hb]

/-- The second aggregate: the same gather and scatter-add of equal operands. -/
theorem agg2_eq : aggOf (hw x0 x1 x2 x3 x4 x5) x1 x2 = val_main_v59 (F := Ideal) x0 x1 x2 x3 x4 x5 := by
  rw [hw_eq]
  unfold aggOf val_main_v59 val_main_v56 val_main_v57 val_main_v58 val_main_v55 val_main_v54 val_main_v53 val_main_v52
    val_main_v51 val_main_v50 val_main_cst_13 val_main_c_11 val_main_c_12
  rfl

/-- The kernel's result is the reference's. -/
theorem out_eq : out x0 x1 x2 x3 x4 x5 x6 = val_main_v64 (F := Ideal) x0 x1 x2 x3 x4 x5 x6 := by
  funext i
  rw [ref_post]
  unfold out
  rw [agg2_eq, degCol_in, Cert.Spec.shapeCast_one]

end Cert.Bridge

end
-- ==== Proof.lean ====
/-
  A two-layer graph convolution (symmetric degree normalisation, degrees clamped below by 1) on
  100 000 nodes and 1.6 million edges, feature widths 1 → 32 → 1: a kernel of three launches among host gathers and
  scatter-adds, against a plain reference.

  Both programs compute, for a node `n` with out-degree `d_out n`, in-degree `d_in n` and `rs d = (max d 1)^(-1/2)`:
    h1[n]  = x[n] · rs (d_out n)
    a1[n]  = ∑ over edges e into n of h1[src e]
    hw[n]  = ∑ₖ max (a1[n] · rs (d_in n) · W1[0,k] + b1[k]) 0 · rs (d_out n) · W2[k,0]
    a2[n]  = ∑ over edges e into n of hw[src e]
    out[n] = a2[n] · rs (d_in n) + b2[0].
  The kernel scales `a1` by `rs (d_in n)` BEFORE the 1 → 32 product and the reference after it; with one input feature the
  product has a single term, and multiplication of extended reals is commutative and associative, so the two agree on
  every input (no distributivity, hence no use of the inputs' finiteness). The aggregations and the degree histograms
  are the same host operations in both programs and are never opened.

  The three frames: the kernel's two are the launch theorem over the generated segments; the reference's is its run with
  the result dropped. `preserves` is `True`: the idealization rewrote nothing.
-/
import proofs.«160025_j60833916780698_1_alg».proof.Defs
import proofs.«160025_j60833916780698_1_alg».proof.Proof.Gen.Kernel
import proofs.«160025_j60833916780698_1_alg».proof.Proof.Gen.Kernel.Skeleton
import proofs.«160025_j60833916780698_1_alg».proof.Proof.Gen.Kernel.Launch
import proofs.«160025_j60833916780698_1_alg».proof.Proof.Gen.Kernel.Points
import proofs.«160025_j60833916780698_1_alg».proof.Proof.Gen.Kernel.Frame
import proofs.«160025_j60833916780698_1_alg».proof.Proof.Gen.KernelIdeal
import proofs.«160025_j60833916780698_1_alg».proof.Proof.Gen.KernelIdeal.Skeleton
import proofs.«160025_j60833916780698_1_alg».proof.Proof.Gen.KernelIdeal.Launch
import proofs.«160025_j60833916780698_1_alg».proof.Proof.Gen.KernelIdeal.Points
import proofs.«160025_j60833916780698_1_alg».proof.Proof.Gen.KernelIdeal.Frame
import proofs.«160025_j60833916780698_1_alg».proof.Proof.Gen.ReferenceIdeal
import proofs.«160025_j60833916780698_1_alg».proof.Proof.Gen.Pre_finite_inputs
import proofs.«160025_j60833916780698_1_alg».proof.Proof.Gen.ReferenceIdeal.Run
import proofs.«160025_j60833916780698_1_alg».proof.Proof.Gen.ReferenceIdeal.Read
import proofs.«160025_j60833916780698_1_alg».proof.Proof.KernelRun
import proofs.«160025_j60833916780698_1_alg».proof.Proof.KernelOut
import proofs.«160025_j60833916780698_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories agreeing on the seven arguments both programs end with the result column `out` of the arguments:
    the kernel by its run with the result named and the walk through @main (`kernel_out`), the reference by its run,
    its last stage, and the agreement of the two functions (`out_eq`). -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelValue.out (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelValue.kernel_out m ρ c), (h c).2⟩)
      (Cert.KernelIdeal.GenP.run_named (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6⟩ := hagree c
    rw [Cert.ReferenceIdeal.Read.val_main_v64_eq, e0, e1, e2, e3, e4, e5, e6]
    exact (Cert.Bridge.out_eq _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
